-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128 : Shape := ⟨3, ![16, 512, 128]⟩
abbrev S16x512x512 : Shape := ⟨3, ![16, 512, 512]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S16x512x128 : S_.BroadcastsInDim S16x512x128 (![] : Fin 0 → Fin S16x512x128.rank)
  reducesTo_S16x512x128_S_d0_1_2 : S16x512x128.ReducesTo [0, 1, 2] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x512x128 .f32) (main_arg1 : FVec F S16x512x512 .f32) (main_arg2 : FVec F S128x64 .f32) (main_arg3 : FVec F S64 .f32) (main_arg4 : FVec F S64x64 .f32) (main_arg5 : FVec F S64 .f32) : IVec S_ 1 :=
  let main_v0 : FVec F S16x512x128 .f32 := Host.absf main_arg0
  let main_cst : FVec F S_ .f32 := constant S_ .f32 0x7F800000#32
  let main_v1 : FVec F S16x512x128 .f32 := broadcastInDim S16x512x128 ![] bcast_S_S16x512x128 main_cst
  let main_v2 : IVec S16x512x128 1 := cmpf .olt main_v0 main_v1
  let main_c : IVec S_ 1 := constantI S_ 1 1#1
  let main_v3 : IVec S_ 1 := (fun x v => Host.reduce IntOp.andi x v reducesTo_S16x512x128_S_d0_1_2 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x512x128 : Shape := ⟨3, ![16, 512, 128]⟩
abbrev S16x512x512 : Shape := ⟨3, ![16, 512, 512]⟩
abbrev S128x64 : Shape := ⟨2, ![128, 64]⟩
abbrev S64 : Shape := ⟨1, ![64]⟩
abbrev S64x64 : Shape := ⟨2, ![64, 64]⟩
abbrev S16x512x64 : Shape := ⟨3, ![16, 512, 64]⟩
abbrev S1x512x512 : Shape := ⟨3, ![1, 512, 512]⟩
abbrev S1x512x128 : Shape := ⟨3, ![1, 512, 128]⟩
abbrev S1x512x64 : Shape := ⟨3, ![1, 512, 64]⟩
abbrev S512x512 : Shape := ⟨2, ![512, 512]⟩
abbrev S512x128 : Shape := ⟨2, ![512, 128]⟩
abbrev S512 : Shape := ⟨1, ![512]⟩
abbrev S1x512 : Shape := ⟨2, ![1, 512]⟩
abbrev S64x512 : Shape := ⟨2, ![64, 512]⟩
abbrev S64x1 : Shape := ⟨2, ![64, 1]⟩
abbrev S512x64 : Shape := ⟨2, ![512, 64]⟩

abbrev nBuf : Space → Nat
  | .hbm => 7
  | .vmem => 10
  | .smem => 0
  | _ => 0

abbrev bufTy : (tb : Table) → Fin (tcTables nBuf tb) → BufTy
  | .hbm, ⟨0, _⟩ => ⟨S16x512x128, .f32⟩
  | .hbm, ⟨1, _⟩ => ⟨S16x512x512, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S16x512x64, .f32⟩
  | .local _ .vmem, ⟨0, _⟩ => ⟨S1x512x512, .f32⟩
  | .local _ .vmem, ⟨1, _⟩ => ⟨S1x512x512, .f32⟩
  | .local _ .vmem, ⟨2, _⟩ => ⟨S1x512x128, .f32⟩
  | .local _ .vmem, ⟨3, _⟩ => ⟨S1x512x128, .f32⟩
  | .local _ .vmem, ⟨4, _⟩ => ⟨S128x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S1x512x64, .f32⟩
  | .local _ .vmem, ⟨9, _⟩ => ⟨S1x512x64, .f32⟩
  | _, _ => ⟨S16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S512x512_S512 : S512x512.Reduces [0] S512
  shapeCasts_S512_S1x512 : S512.ShapeCasts S1x512
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  broadcasts_S1x512_S64x512 : S1x512.Broadcasts S64x512
  inb_S64_S64_0 : ∀ a, (![0] : Fin 1 → Nat) a + S64.size a ≤ S64.size a
  h_S64 : 0 < S64.numel
  shapeCasts_S64_S64x1 : S64.ShapeCasts S64x1
  broadcasts_S64x1_S64x512 : S64x1.Broadcasts S64x512
  inb_S64x64_S64x64_0_0 : ∀ a, (![0, 0] : Fin 2 → Nat) a + S64x64.size a ≤ S64x64.size a
  h_S64x64 : 0 < S64x64.numel
  transposes_S64x512_p1_0_S512x64 : S64x512.Transposes [1, 0] S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S128x64_S512x128_S64x512_0_1_1_0_n_n_wf : DotDims.WF S128x64 S512x128 S64x512 [0] [1] [1] [0] [] []
  dot_S64x512_S512x512_S64x512_1_0_0_1_n_n_wf : DotDims.WF S64x512 S512x512 S64x512 [1] [0] [0] [1] [] []
  dot_S64x64_S64x512_S64x512_0_0_1_1_n_n_wf : DotDims.WF S64x64 S64x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x512x512.size a
  hwx0_0 : ∀ i : grid0.Coords, EltTy.bits .f32 = 32 ∨ (Rect.block (s := S16x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S16x512x128.size a
  hwx0_1 : ∀ i : grid0.Coords, EltTy.bits .f32 = 32 ∨ (Rect.block (s := S16x512x128) S1x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x64.size a ≤ S16x512x64.size a
  hwx0_6 : ∀ i : grid0.Coords, EltTy.bits .f32 = 32 ∨ (Rect.block (s := S16x512x64) S1x512x64.size (cc0_transform_6 i) (hinb0_6 i)).WholeWords (EltTy.packing .f32)

variable [Facts₀]

def dot_S128x64_S512x128_S64x512_0_1_1_0_n_n : DotDims S128x64 S512x128 S64x512 where
  lhsContracting := [0]
  rhsContracting := [1]
  lhsNonContracting := [1]
  rhsNonContracting := [0]
  lhsBatch := []
  rhsBatch := []
  wf := dot_S128x64_S512x128_S64x512_0_1_1_0_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x64_S64x512_S64x512_0_0_1_1_n_n : DotDims S64x64 S64x512 S64x512 where
  lhsContracting := [0]
  rhsContracting := [0]
  lhsNonContracting := [1]
  rhsNonContracting := [1]
  lhsBatch := []
  rhsBatch := []
  wf := dot_S64x64_S64x512_S64x512_0_0_1_1_n_n_wf

abbrev win0_0 : Pipeline.Window sig grid0 :=
  Pipeline.Window.ofSpec (Memref.whole main_arg1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x512x128 : Shape := ⟨3, ![16, 512, 128]⟩
abbrev S16x512x512 : Shape := ⟨3, ![16, 512, 512]⟩
abbrev S128x64 : Shape := ⟨2, ![128, 64]⟩
abbrev S64 : Shape := ⟨1, ![64]⟩
abbrev S64x64 : Shape := ⟨2, ![64, 64]⟩
abbrev S16x512x64 : Shape := ⟨3, ![16, 512, 64]⟩
abbrev S_ : Shape := ⟨0, ![]⟩
abbrev S16x512 : Shape := ⟨2, ![16, 512]⟩
abbrev S16x512x1 : Shape := ⟨3, ![16, 512, 1]⟩
abbrev S16x1x512 : Shape := ⟨3, ![16, 1, 512]⟩
abbrev S1x1x64 : Shape := ⟨3, ![1, 1, 64]⟩

abbrev nBuf : Space → Nat
  | .hbm => 56
  | .vmem => 0
  | .smem => 0
  | _ => 0

abbrev bufTy : (tb : Table) → Fin (tcTables nBuf tb) → BufTy
  | .hbm, ⟨0, _⟩ => ⟨S16x512x128, .f32⟩
  | .hbm, ⟨1, _⟩ => ⟨S16x512x512, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S16x512x64, .f32⟩
  | .hbm, ⟨7, _⟩ => ⟨S16x512x512, .f32⟩
  | .hbm, ⟨8, _⟩ => ⟨S_, .f32⟩
  | .hbm, ⟨9, _⟩ => ⟨S16x512, .f32⟩
  | .hbm, ⟨10, _⟩ => ⟨S_, .f32⟩
  | .hbm, ⟨11, _⟩ => ⟨S16x512, .f32⟩
  | .hbm, ⟨12, _⟩ => ⟨S16x512, .i1⟩
  | .hbm, ⟨13, _⟩ => ⟨S16x512, .f32⟩
  | .hbm, ⟨14, _⟩ => ⟨S_, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512x1, .f32⟩
  | .hbm, ⟨19, _⟩ => ⟨S16x512x512, .f32⟩
  | .hbm, ⟨20, _⟩ => ⟨S16x512x512, .f32⟩
  | .hbm, ⟨21, _⟩ => ⟨S16x1x512, .f32⟩
  | .hbm, ⟨22, _⟩ => ⟨S16x512x512, .f32⟩
  | .hbm, ⟨23, _⟩ => ⟨S16x512x512, .f32⟩
  | .hbm, ⟨24, _⟩ => ⟨S16x512x64, .f32⟩
  | .hbm, ⟨25, _⟩ => ⟨S1x1x64, .f32⟩
  | .hbm, ⟨26, _⟩ => ⟨S16x512x64, .f32⟩
  | .hbm, ⟨27, _⟩ => ⟨S16x512x64, .f32⟩
  | .hbm, ⟨28, _⟩ => ⟨S_, .f32⟩
  | .hbm, ⟨29, _⟩ => ⟨S16x512x64, .f32⟩
  | .hbm, ⟨30, _⟩ => ⟨S16x512x64, .f32⟩
  | .hbm, ⟨31, _⟩ => ⟨S16x512x64, .f32⟩
  | .hbm, ⟨32, _⟩ => ⟨S16x512x512, .f32⟩
  | .hbm, ⟨33, _⟩ => ⟨S_, .f32⟩
  | .hbm, ⟨34, _⟩ => ⟨S16x512, .f32⟩
  | .hbm, ⟨35, _⟩ => ⟨S_, .f32⟩
  | .hbm, ⟨36, _⟩ => ⟨S16x512, .f32⟩
  | .hbm, ⟨37, _⟩ => ⟨S16x512, .i1⟩
  | .hbm, ⟨38, _⟩ => ⟨S16x512, .f32⟩
  | .hbm, ⟨39, _⟩ => ⟨S_, .f32⟩
  | .hbm, ⟨40, _⟩ => ⟨S_, .f32⟩
  | .hbm, ⟨41, _⟩ => ⟨S16x512, .f32⟩
  | .hbm, ⟨42, _⟩ => ⟨S16x512, .f32⟩
  | .hbm, ⟨43, _⟩ => ⟨S16x512x1, .f32⟩
  | .hbm, ⟨44, _⟩ => ⟨S16x512x512, .f32⟩
  | .hbm, ⟨45, _⟩ => ⟨S16x512x512, .f32⟩
  | .hbm, ⟨46, _⟩ => ⟨S16x1x512, .f32⟩
  | .hbm, ⟨47, _⟩ => ⟨S16x512x512, .f32⟩
  | .hbm, ⟨48, _⟩ => ⟨S16x512x512, .f32⟩
  | .hbm, ⟨49, _⟩ => ⟨S16x512x64, .f32⟩
  | .hbm, ⟨50, _⟩ => ⟨S1x1x64, .f32⟩
  | .hbm, ⟨51, _⟩ => ⟨S16x512x64, .f32⟩
  | .hbm, ⟨52, _⟩ => ⟨S16x512x64, .f32⟩
  | .hbm, ⟨53, _⟩ => ⟨S_, .f32⟩
  | .hbm, ⟨54, _⟩ => ⟨S16x512x64, .f32⟩
  | .hbm, ⟨55, _⟩ => ⟨S16x512x64, .f32⟩
  | _, _ => ⟨S16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_call2_v0 : Ref sig .tc := ⟨.hbm, 40, rfl⟩
abbrev main_call2_v1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call3_cst : Ref sig .tc := ⟨.hbm, 53, rfl⟩
abbrev main_call3_v0 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  transposes_S16x512x512_S16x512x512_0_2_1 : S16x512x512.Transposes [0, 2, 1] S16x512x512
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S16x512_S16x1x512_0_2 : S16x512.BroadcastsInDim S16x1x512 (![0, 2] : Fin 2 → Fin S16x1x512.rank)
  bcast_S16x1x512_S16x512x512_0_1_2 : S16x1x512.BroadcastsInDim S16x512x512 (![0, 1, 2] : Fin 3 → Fin S16x512x512.rank)
  bcast_S64_S1x1x64_2 : S64.BroadcastsInDim S1x1x64 (![2] : Fin 1 → Fin S1x1x64.rank)
  bcast_S1x1x64_S16x512x64_0_1_2 : S1x1x64.BroadcastsInDim S16x512x64 (![0, 1, 2] : Fin 3 → Fin S16x512x64.rank)
  bcast_S_S16x512x64 : S_.BroadcastsInDim S16x512x64 (![] : Fin 0 → Fin S16x512x64.rank)
  dot_S16x512x128_S128x64_S16x512x64_2_0_01_1_n_n_wf : DotDims.WF S16x512x128 S128x64 S16x512x64 [2] [0] [0, 1] [1] [] []
  dot_S16x512x512_S16x512x64_S16x512x64_2_1_1_2_0_0_wf : DotDims.WF S16x512x512 S16x512x64 S16x512x64 [2] [1] [1] [2] [0] [0]
  dot_S16x512x64_S64x64_S16x512x64_2_0_01_1_n_n_wf : DotDims.WF S16x512x64 S64x64 S16x512x64 [2] [0] [0, 1] [1] [] []

variable [Facts₀]

def dot_S16x512x128_S128x64_S16x512x64_2_0_01_1_n_n : DotDims S16x512x128 S128x64 S16x512x64 where
  lhsContracting := [2]
  rhsContracting := [0]
  lhsNonContracting := [0, 1]
  rhsNonContracting := [1]
  lhsBatch := []
  rhsBatch := []
  wf := dot_S16x512x128_S128x64_S16x512x64_2_0_01_1_n_n_wf
def dot_S16x512x512_S16x512x64_S16x512x64_2_1_1_2_0_0 : DotDims S16x512x512 S16x512x64 S16x512x64 where
  lhsContracting := [2]
  rhsContracting := [1]
  lhsNonContracting := [1]
  rhsNonContracting := [2]
  lhsBatch := [0]
  rhsBatch := [0]
  wf := dot_S16x512x512_S16x512x64_S16x512x64_2_1_1_2_0_0_wf
def dot_S16x512x64_S64x64_S16x512x64_2_0_01_1_n_n : DotDims S16x512x64 S64x64 S16x512x64 where
  lhsContracting := [2]
  rhsContracting := [0]
  lhsNonContracting := [0, 1]
  rhsNonContracting := [1]
  lhsBatch := []
  rhsBatch := []
  wf := dot_S16x512x64_S64x64_S16x512x64_2_0_01_1_n_n_wf

class Facts : Prop extends Facts₀ where

variable [Facts]
-- ==== Proof.GcnSpec.lean ====
/-
  Two dense graph-convolution layers, per graph, on the extended reals.

  For one graph with weighted adjacency `A : 512 × 512`, the degree of node `c` is the column sum
  `deg c = ∑ r, A r c`, and `dinv c = 1/√(deg c)` where the degree is positive, `0` elsewhere.
  A layer sends per-node features `s` (one output feature at a time) to
      `out c = ∑ r, dinv c · A r c · dinv r · s r`,
  adds a bias and clamps at zero.  It is written here in two arrangements:
    * `aggK`: scale the source nodes, contract against `A`, then scale the target node
      (`(∑ n, (s n · dinv n) · A n c) · dinv c`) — the normalized adjacency is never formed;
    * `aggR`: form the normalized adjacency entry `(dinv c · A r c) · dinv r` and contract it with `s`.
  They agree because `dinv c` is a nonnegative REAL for every extended-real degree (the reciprocal
  square root of `+∞` is `0`, of a positive real a positive real, and a non-positive degree is guarded to `0`),
  and multiplication by a nonnegative real distributes over any sum of extended reals; the rest is
  commutativity and associativity of the product.  No finiteness of `A` or of the features is needed.
-/
import Idealize.ShloMosaic.PureOps.Ideal
import Idealize.ShloMosaic.PureOps.Ideal.Laws
import Idealize.ShloMosaic.Lib.ValueIdx

noncomputable section

namespace Gcn

open Idealize.ShloMosaic Idealize.ShloMosaic.ValueIdx

/-- The guarded reciprocal square root of a degree: `1/√d` where `d > 0`, else `0`. -/
def dinvOf (d : EReal) : EReal := Scalar.select (Ideal.cmp .ogt d 0) (Ideal.rsqrt d) 0

/-- It is a nonnegative real whatever the degree: `+∞ ↦ 0`, a positive real to a positive real, all else to `0`. -/
theorem dinvOf_spec (d : EReal) : 0 ≤ dinvOf d ∧ dinvOf d ≠ ⊤ := by
  unfold dinvOf Scalar.select Ideal.cmp
  by_cases h : (0 : EReal) < d
  · have h1 : BitVec.ofBool (decide ((0 : EReal) < d)) = 1 := by simp [h]
    rw [if_pos h1]
    induction d using EReal.rec with
    | bot => exact absurd h (by simp)
    | top => exact ⟨by simp, by simp⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have h0 : ¬ BitVec.ofBool (decide ((0 : EReal) < d)) = 1 := by simp [h]
    rw [if_neg h0]
    exact ⟨le_refl _, EReal.zero_ne_top⟩

/-- A nonnegative real factor distributes over a finite sum of extended reals. -/
theorem sum_mul_of_nonneg_ne_top {ι : Type} (s : Finset ι) (f : ι → EReal) {d : EReal} (h0 : 0 ≤ d) (ht : d ≠ ⊤) :
    (∑ i ∈ s, f i) * d = ∑ i ∈ s, f i * d := by
  classical
  induction s using Finset.induction_on with
  | empty => simp
  | insert a s ha ih =>
    rw [Finset.sum_insert ha, Finset.sum_insert ha, EReal.right_distrib_of_nonneg_of_ne_top h0 ht, ih]

section Layer

variable (A : Fin 512 → Fin 512 → EReal)

/-- The degree of node `c`: the sum of column `c` of the adjacency. -/
def deg (c : Fin 512) : EReal := ∑ r : Fin 512, A r c

/-- `1/√deg`, guarded. -/
def dinv (c : Fin 512) : EReal := dinvOf (deg A c)

theorem dinv_spec (c : Fin 512) : 0 ≤ dinv A c ∧ dinv A c ≠ ⊤ := dinvOf_spec _

/-- Scale the sources, contract, scale the target. -/
def aggK (s : Fin 512 → EReal) (c : Fin 512) : EReal := (∑ n : Fin 512, (s n * dinv A n) * A n c) * dinv A c

/-- Contract the normalized adjacency's row with the sources. -/
def aggR (s : Fin 512 → EReal) (c : Fin 512) : EReal := ∑ r : Fin 512, ((dinv A c * A r c) * dinv A r) * s r

/-- The two arrangements of one layer's aggregation agree. -/
theorem aggK_eq_aggR (s : Fin 512 → EReal) (c : Fin 512) : aggK A s c = aggR A s c := by
  unfold aggK aggR
  rw [sum_mul_of_nonneg_ne_top Finset.univ _ (d := dinv A c) (dinv_spec A c).1 (dinv_spec A c).2]
  refine Finset.sum_congr rfl fun n _ => ?_
  rw [mul_comm (s n * dinv A n * A n c) (dinv A c), mul_assoc (s n) (dinv A n) (A n c), mul_comm (s n) _,
    ← mul_assoc (dinv A c), mul_comm (dinv A n) (A n c), ← mul_assoc (dinv A c)]

variable (x : Fin 512 → Fin 128 → EReal) (W1 : Fin 128 → Fin 64 → EReal) (b1 : Fin 64 → EReal)
  (W2 : Fin 64 → Fin 64 → EReal) (b2 : Fin 64 → EReal)

/-- Hidden feature `h` of node `c`, the sources scaled first; the projection is written weight first. -/
def h1K (h : Fin 64) (c : Fin 512) : EReal :=
  max (aggK A (fun n => ∑ d : Fin 128, W1 d h * x n d) c + b1 h) 0

/-- Output feature `o` of node `c`, the sources scaled first. -/
def outK (o : Fin 64) (c : Fin 512) : EReal :=
  max (aggK A (fun n => ∑ h : Fin 64, W2 h o * h1K A x W1 b1 h n) c + b2 o) 0

/-- Hidden feature `f` of node `n`, through the normalized adjacency; the projection is written feature first. -/
def h1R (n : Fin 512) (f : Fin 64) : EReal :=
  max (aggR A (fun r => ∑ d : Fin 128, x r d * W1 d f) n + b1 f) 0

/-- Output feature `o` of node `c`, through the normalized adjacency. -/
def outR (c : Fin 512) (o : Fin 64) : EReal :=
  max (aggR A (fun r => ∑ h : Fin 64, h1R A x W1 b1 r h * W2 h o) c + b2 o) 0

theorem h1K_eq_h1R (h : Fin 64) (c : Fin 512) : h1K A x W1 b1 h c = h1R A x W1 b1 c h := by
  unfold h1K h1R
  have e : (fun n => ∑ d : Fin 128, W1 d h * x n d) = (fun r => ∑ d : Fin 128, x r d * W1 d h) :=
    funext fun n => Finset.sum_congr rfl fun d _ => mul_comm _ _
  rw [aggK_eq_aggR, e]

/-- Both layers: the two arrangements give the same output feature at every node. -/
theorem outK_eq_outR (o : Fin 64) (c : Fin 512) : outK A x W1 b1 W2 b2 o c = outR A x W1 b1 W2 b2 c o := by
  unfold outK outR
  have e : (fun n => ∑ h : Fin 64, W2 h o * h1K A x W1 b1 h n) = (fun r => ∑ h : Fin 64, h1R A x W1 b1 r h * W2 h o) :=
    funext fun n => Finset.sum_congr rfl fun h _ => by rw [h1K_eq_h1R, mul_comm]
  rw [aggK_eq_aggR, e]

end Layer

/-! ## The whole batch -/

/-- The result array of the batch, index by index: graph `b`, node `c`, output feature `o`, each graph by itself
    from its own slice of the features and of the adjacency and from the shared weights. -/
def outAt (xa : (⟨3, ![16, 512, 128]⟩ : Shape).Idx → EReal) (Aa : (⟨3, ![16, 512, 512]⟩ : Shape).Idx → EReal)
    (W1a : (⟨2, ![128, 64]⟩ : Shape).Idx → EReal) (b1a : (⟨1, ![64]⟩ : Shape).Idx → EReal)
    (W2a : (⟨2, ![64, 64]⟩ : Shape).Idx → EReal) (b2a : (⟨1, ![64]⟩ : Shape).Idx → EReal)
    (b : Fin 16) (c : Fin 512) (o : Fin 64) : EReal :=
  outR (fun r c' => Aa (ix3 b r c')) (fun n d => xa (ix3 b n d)) (fun d f => W1a (ix2 d f)) (fun f => b1a (ix1 f))
    (fun h o' => W2a (ix2 h o')) (fun o' => b2a (ix1 o')) c o

/-- The same as a function of the array index. -/
def out (xa : (⟨3, ![16, 512, 128]⟩ : Shape).Idx → EReal) (Aa : (⟨3, ![16, 512, 512]⟩ : Shape).Idx → EReal)
    (W1a : (⟨2, ![128, 64]⟩ : Shape).Idx → EReal) (b1a : (⟨1, ![64]⟩ : Shape).Idx → EReal)
    (W2a : (⟨2, ![64, 64]⟩ : Shape).Idx → EReal) (b2a : (⟨1, ![64]⟩ : Shape).Idx → EReal) :
    (⟨3, ![16, 512, 64]⟩ : Shape).Idx → EReal :=
  fun i => outAt xa Aa W1a b1a W2a b2a (i 0) (i 1) (i 2)

end Gcn

end
-- ==== Proof.RefIsSpec.lean ====
/-
  The reference program's result, read one operation at a time, is `Gcn.out` of its arguments: per graph, the
  column sums of the adjacency (a transpose followed by a sum over the last axis), their guarded reciprocal
  square roots, the normalized adjacency `(dinv c · A r c) · dinv r` formed entry by entry, its contraction with
  the projected features, the bias and the clamp at zero — twice.
-/
import proofs.«150109_g57208964383454_cont_9to1_m_350_8_alg».proof.Proof.Gen.ReferenceIdeal.Read
import proofs.«150109_g57208964383454_cont_9to1_m_350_8_alg».proof.Proof.GcnSpec

noncomputable section

namespace Cert.ReferenceIdeal.RefSpec

open Cert.ReferenceIdeal Cert.ReferenceIdeal.Gen Cert.ReferenceIdeal.Read Idealize.ShloMosaic Idealize.ShloMosaic.TcCoe
open Idealize.ShloMosaic.ValueIdx

variable (x0 : (⟨S16x512x128, .f32⟩ : BufTy).Contents (Elt Ideal)) (x1 : (⟨S16x512x512, .f32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-- Graph `b`'s adjacency. -/
abbrev adj (b : Fin 16) : Fin 512 → Fin 512 → EReal := fun r c => x1 (ix3 b r c)

/-- The first layer's degree: the transposed adjacency summed over its last axis is the column sum. -/
theorem deg_eq (b : Fin 16) (c : Fin 512) : val_main_v2 (F := Ideal) x1 (ix2 b c) = Gcn.deg (adj x1 b) c := by
  rw [val_main_v2_apply]
  simp only [val_main_v1_apply, val_main_cst_apply, Ideal.ofBits_def, Ideal.ofBits_zero_f32, zero_add]
  unfold Gcn.deg
  refine Finset.sum_congr rfl fun k _ => congrArg x1 (funext fun a => Fin.ext ?_)
  match a with | ⟨0, _⟩ => rfl | ⟨1, _⟩ => rfl | ⟨2, _⟩ => rfl

/-- The second layer recomputes the same degree. -/
theorem deg_eq' (b : Fin 16) (c : Fin 512) : val_main_v20 (F := Ideal) x1 (ix2 b c) = Gcn.deg (adj x1 b) c := by
  rw [val_main_v20_apply]
  simp only [val_main_v19_apply, val_main_cst_2_apply, Ideal.ofBits_def, Ideal.ofBits_zero_f32, zero_add]
  unfold Gcn.deg
  refine Finset.sum_congr rfl fun k _ => congrArg x1 (funext fun a => Fin.ext ?_)
  match a with | ⟨0, _⟩ => rfl | ⟨1, _⟩ => rfl | ⟨2, _⟩ => rfl

/-- The guarded reciprocal square root of the degree (first layer's copy). -/
theorem dinv_eq (b : Fin 16) (c : Fin 512) : val_main_v6 (F := Ideal) x1 (ix2 b c) = Gcn.dinv (adj x1 b) c := by
  rw [val_main_v6_apply, val_main_v4_apply, val_main_v5_apply, val_main_call0_v1_apply, val_main_call0_v0_apply,
    val_main_cst_1_apply, val_main_v3_apply, val_main_cst_0_apply, deg_eq]
  simp only [Ideal.ofBits_def, Ideal.ofBits_zero_f32, Ideal.hostUnary_rsqrt_def]
  rfl

/-- The guarded reciprocal square root of the degree (second layer's copy). -/
theorem dinv_eq' (b : Fin 16) (c : Fin 512) : val_main_v24 (F := Ideal) x1 (ix2 b c) = Gcn.dinv (adj x1 b) c := by
  rw [val_main_v24_apply, val_main_v22_apply, val_main_v23_apply, val_main_call2_v1_apply, val_main_call2_v0_apply,
    val_main_cst_4_apply, val_main_v21_apply, val_main_cst_3_apply, deg_eq']
  simp only [Ideal.ofBits_def, Ideal.ofBits_zero_f32, Ideal.hostUnary_rsqrt_def]
  rfl

/-- The normalized adjacency's entry (target `c`, source `r`), first layer's copy. -/
theorem norm_eq (b : Fin 16) (c r : Fin 512) :
    val_main_v12 (F := Ideal) x1 (ix3 b c r) = (Gcn.dinv (adj x1 b) c * adj x1 b r c) * Gcn.dinv (adj x1 b) r := by
  rw [val_main_v12_apply, val_main_v9_apply, val_main_v8_apply, val_main_v7_apply, val_main_v11_apply, val_main_v10_apply,
    val_main_v1_apply]
  have e1 : idx_main_v7 (idx_main_v8 (ix3 b c r)) = ix2 b c := funext fun a => Fin.ext (by
    match a with | ⟨0, _⟩ => rfl | ⟨1, _⟩ => rfl)
  have e2 : idx_main_v10 (idx_main_v11 (ix3 b c r)) = ix2 b r := funext fun a => Fin.ext (by
    match a with | ⟨0, _⟩ => rfl | ⟨1, _⟩ => rfl)
  have e3 : idx_main_v1 (ix3 b c r) = ix3 b r c := funext fun a => Fin.ext (by
    match a with | ⟨0, _⟩ => rfl | ⟨1, _⟩ => rfl | ⟨2, _⟩ => rfl)
  rw [e1, e2, e3, dinv_eq, dinv_eq]
  rfl

/-- The normalized adjacency's entry, second layer's copy. -/
theorem norm_eq' (b : Fin 16) (c r : Fin 512) :
    val_main_v30 (F := Ideal) x1 (ix3 b c r) = (Gcn.dinv (adj x1 b) c * adj x1 b r c) * Gcn.dinv (adj x1 b) r := by
  rw [val_main_v30_apply, val_main_v27_apply, val_main_v26_apply, val_main_v25_apply, val_main_v29_apply, val_main_v28_apply,
    val_main_v19_apply]
  have e1 : idx_main_v25 (idx_main_v26 (ix3 b c r)) = ix2 b c := funext fun a => Fin.ext (by
    match a with | ⟨0, _⟩ => rfl | ⟨1, _⟩ => rfl)
  have e2 : idx_main_v28 (idx_main_v29 (ix3 b c r)) = ix2 b r := funext fun a => Fin.ext (by
    match a with | ⟨0, _⟩ => rfl | ⟨1, _⟩ => rfl)
  have e3 : idx_main_v19 (ix3 b c r) = ix3 b r c := funext fun a => Fin.ext (by
    match a with | ⟨0, _⟩ => rfl | ⟨1, _⟩ => rfl | ⟨2, _⟩ => rfl)
  rw [e1, e2, e3, dinv_eq', dinv_eq']
  rfl

/-- The first projection: node `n`'s features against column `f` of the first weight matrix. -/
theorem proj_eq (b : Fin 16) (n : Fin 512) (f : Fin 64) :
    val_main_v0 (F := Ideal) x0 x2 (ix3 b n f) = ∑ d : Fin 128, x0 (ix3 b n d) * x2 (ix2 d f) := by
  rw [val_main_v0_apply]
  refine Finset.sum_congr rfl fun k _ => ?_
  have el : lidx_main_v0 (ix3 b n f) k = ix3 b n k := funext fun a => Fin.ext (by
    match a with | ⟨0, _⟩ => rfl | ⟨1, _⟩ => rfl | ⟨2, _⟩ => rfl)
  have er : ridx_main_v0 (ix3 b n f) k = ix2 k f := funext fun a => Fin.ext (by
    match a with | ⟨0, _⟩ => rfl | ⟨1, _⟩ => rfl)
  rw [el, er]

/-- The hidden layer. -/
theorem hidden_eq (b : Fin 16) (n : Fin 512) (f : Fin 64) :
    val_main_v17 (F := Ideal) x0 x1 x2 x3 (ix3 b n f)
      = Gcn.h1R (adj x1 b) (fun n d => x0 (ix3 b n d)) (fun d f => x2 (ix2 d f)) (fun f => x3 (ix1 f)) n f := by
  rw [val_main_v17_apply, val_main_v16_apply, val_main_call1_v0_apply, val_main_call1_cst_apply, val_main_v15_apply,
    val_main_v14_apply, val_main_v13_apply]
  have eb : idx_main_v14 (idx_main_v15 (ix3 b n f)) = ix1 f := funext fun a => Fin.ext (by
    match a with | ⟨0, _⟩ => rfl)
  rw [eb]
  simp only [Ideal.ofBits_def, Ideal.ofBits_zero_f32, Ideal.maximumf_def, Ideal.addf_def]
  unfold Gcn.h1R Gcn.aggR
  refine congrArg (fun s => max (s + x3 (ix1 f)) 0) (Finset.sum_congr rfl fun k _ => ?_)
  have el : lidx_main_v13 (ix3 b n f) k = ix3 b n k := funext fun a => Fin.ext (by
    match a with | ⟨0, _⟩ => rfl | ⟨1, _⟩ => rfl | ⟨2, _⟩ => rfl)
  have er : ridx_main_v13 (ix3 b n f) k = ix3 b k f := funext fun a => Fin.ext (by
    match a with | ⟨0, _⟩ => rfl | ⟨1, _⟩ => rfl | ⟨2, _⟩ => rfl)
  rw [el, er, norm_eq, proj_eq]

/-- The second projection: node `n`'s hidden features against column `o` of the second weight matrix. -/
theorem proj_eq' (b : Fin 16) (n : Fin 512) (o : Fin 64) :
    val_main_v18 (F := Ideal) x0 x1 x2 x3 x4 (ix3 b n o)
      = ∑ h : Fin 64, Gcn.h1R (adj x1 b) (fun n d => x0 (ix3 b n d)) (fun d f => x2 (ix2 d f)) (fun f => x3 (ix1 f)) n h * x4 (ix2 h o) := by
  rw [val_main_v18_apply]
  refine Finset.sum_congr rfl fun k _ => ?_
  have el : lidx_main_v18 (ix3 b n o) k = ix3 b n k := funext fun a => Fin.ext (by
    match a with | ⟨0, _⟩ => rfl | ⟨1, _⟩ => rfl | ⟨2, _⟩ => rfl)
  have er : ridx_main_v18 (ix3 b n o) k = ix2 k o := funext fun a => Fin.ext (by
    match a with | ⟨0, _⟩ => rfl | ⟨1, _⟩ => rfl)
  rw [el, er, hidden_eq]

/-- The reference's result at graph `b`, node `c`, feature `o`. -/
theorem result_at (b : Fin 16) (c : Fin 512) (o : Fin 64) :
    val_main_v35 (F := Ideal) x0 x1 x2 x3 x4 x5 (ix3 b c o) = Gcn.outAt x0 x1 x2 x3 x4 x5 b c o := by
  rw [val_main_v35_apply, val_main_v34_apply, val_main_call3_v0_apply, val_main_call3_cst_apply, val_main_v33_apply,
    val_main_v32_apply, val_main_v31_apply]
  have eb : idx_main_v32 (idx_main_v33 (ix3 b c o)) = ix1 o := funext fun a => Fin.ext (by
    match a with | ⟨0, _⟩ => rfl)
  rw [eb]
  simp only [Ideal.ofBits_def, Ideal.ofBits_zero_f32, Ideal.maximumf_def, Ideal.addf_def]
  unfold Gcn.outAt Gcn.outR Gcn.aggR
  refine congrArg (fun s => max (s + x5 (ix1 o)) 0) (Finset.sum_congr rfl fun k _ => ?_)
  have el : lidx_main_v31 (ix3 b c o) k = ix3 b c k := funext fun a => Fin.ext (by
    match a with | ⟨0, _⟩ => rfl | ⟨1, _⟩ => rfl | ⟨2, _⟩ => rfl)
  have er : ridx_main_v31 (ix3 b c o) k = ix3 b k o := funext fun a => Fin.ext (by
    match a with | ⟨0, _⟩ => rfl | ⟨1, _⟩ => rfl | ⟨2, _⟩ => rfl)
  rw [el, er, norm_eq', proj_eq']

/-- The reference's result array is `Gcn.out` of the argument arrays. -/
theorem result_eq : val_main_v35 (F := Ideal) x0 x1 x2 x3 x4 x5 = Gcn.out x0 x1 x2 x3 x4 x5 := by
  funext i
  obtain ⟨b, c, o, rfl⟩ : ∃ (b : Fin 16) (c : Fin 512) (o : Fin 64), i = ix3 b c o := ⟨i 0, i 1, i 2, eq_ix3 i⟩
  exact result_at x0 x1 x2 x3 x4 x5 b c o

end Cert.ReferenceIdeal.RefSpec

end
-- ==== Proof.KernelStages.lean ====
/-
  The kernel body's arithmetic, read at an index.

  One grid point holds one graph: its adjacency block `P0` ([1,512,512]), its feature block `P1` ([1,512,128]) and the
  shared weights and biases.  The body works in the transposed layout (feature, node):
    * the degrees are the column sums of the adjacency, as a row; `dinvRow` is their guarded reciprocal square root;
    * `projT` is `(x·W1)ᵀ`, a contraction of `W1`'s rows with the features' columns;
    * `layer` scales a (feature, node) tile by `dinvRow` along the nodes, contracts it with the adjacency over the
      source node, and scales the result by `dinvRow` along the target nodes;
    * `biasRelu` adds a per-feature bias and clamps at zero; `projT2` is `(h·W2)ᵀ`.
  The printed payload is `layer (projT2 (biasRelu (layer projT)))` by unfolding, and each stage read at an index is the
  corresponding sum of `Gcn` (the changes of float format between the stages are the identity on extended reals).
-/
import proofs.«150109_g57208964383454_cont_9to1_m_350_8_alg».proof.Proof.Gen.KernelIdeal.Skeleton
import proofs.«150109_g57208964383454_cont_9to1_m_350_8_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stages

open Cert.KernelIdeal Cert.KernelIdeal.Gen Idealize.ShloMosaic Idealize.ShloMosaic.TcCoe Idealize.ShloMosaic.ValueIdx

/-! ## Two layout readings: a vector as a column, and a column spread over the rows' length -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The column sum -/

/-- The sum over the rows of a 512 × 512 matrix, at column `c`. -/
theorem colsum_apply (v : FVec Ideal S512x512 .f32) (c : Fin 512) :
    multiReduction .add [0] S512 v 0x00000000#32 reduces_S512x512_S512 (.inl rfl) rfl (ix1 c) = ∑ r : Fin 512, v (ix2 r c) := by
  refine (Ideal.multiReduction_add_single v 0x00000000#32 reduces_S512x512_S512 (.inl rfl) rfl (ix1 c)).trans ?_
  refine Finset.sum_congr rfl fun k _ => congrArg v (funext fun a => Fin.ext ?_)
  match a with | ⟨0, _⟩ => rfl | ⟨1, _⟩ => rfl

/-! ## The three contractions -/

theorem lhsA_0 (j : S64x512.Idx) (q : dot_S64x512_S512x512_S64x512_1_0_0_1_n_n.contr.Idx) : (dot_S64x512_S512x512_S64x512_1_0_0_1_n_n.lhsIdx j q 0).val = (j 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem lhsA_1 (j : S64x512.Idx) (q : dot_S64x512_S512x512_S64x512_1_0_0_1_n_n.contr.Idx) : (dot_S64x512_S512x512_S64x512_1_0_0_1_n_n.lhsIdx j q 1).val = (q ⟨0, by decide⟩).val :=
  dot_S64x512_S512x512_S64x512_1_0_0_1_n_n.lhsIdx_val_of_single rfl j q
theorem rhsA_0 (j : S64x512.Idx) (q : dot_S64x512_S512x512_S64x512_1_0_0_1_n_n.contr.Idx) : (dot_S64x512_S512x512_S64x512_1_0_0_1_n_n.rhsIdx j q 0).val = (q ⟨0, by decide⟩).val :=
  dot_S64x512_S512x512_S64x512_1_0_0_1_n_n.rhsIdx_val_of_single rfl j q
theorem rhsA_1 (j : S64x512.Idx) (q : dot_S64x512_S512x512_S64x512_1_0_0_1_n_n.contr.Idx) : (dot_S64x512_S512x512_S64x512_1_0_0_1_n_n.rhsIdx j q 1).val = (j 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- A (feature, node) tile against the adjacency: contract the tile's node axis with the adjacency's source axis. -/
theorem matmulA_apply (Lv : FVec Ideal S64x512 .bf16) (Rv : FVec Ideal S512x512 .bf16) (o : Fin 64) (c : Fin 512) :
    matmul dot_S64x512_S512x512_S64x512_1_0_0_1_n_n none Lv Rv (constant (F := Ideal) S64x512 .f32 0x00000000#32) (ix2 o c) = ∑ n : Fin 512, Lv (ix2 o n) * Rv (ix2 n c) := by
  refine (Ideal.matmul_constant_zero_apply dot_S64x512_S512x512_S64x512_1_0_0_1_n_n none Lv Rv (ix2 o c)).trans ?_
  rw [← Equiv.sum_comp (ValueIdx.contrEquiv1 dot_S64x512_S512x512_S64x512_1_0_0_1_n_n 512 rfl rfl).symm]
  refine Finset.sum_congr rfl fun k _ => ?_
  have hk := ValueIdx.contrEquiv1_symm_val dot_S64x512_S512x512_S64x512_1_0_0_1_n_n 512 rfl rfl k
  have el : dot_S64x512_S512x512_S64x512_1_0_0_1_n_n.lhsIdx (ix2 o c) ((ValueIdx.contrEquiv1 dot_S64x512_S512x512_S64x512_1_0_0_1_n_n 512 rfl rfl).symm k) = ix2 o k := funext fun a => Fin.ext (by
    match a with
    | ⟨0, _⟩ => exact lhsA_0 _ _
    | ⟨1, _⟩ => exact (lhsA_1 _ _).trans hk)
  have er : dot_S64x512_S512x512_S64x512_1_0_0_1_n_n.rhsIdx (ix2 o c) ((ValueIdx.contrEquiv1 dot_S64x512_S512x512_S64x512_1_0_0_1_n_n 512 rfl rfl).symm k) = ix2 k c := funext fun a => Fin.ext (by
    match a with
    | ⟨0, _⟩ => exact (rhsA_0 _ _).trans hk
    | ⟨1, _⟩ => exact rhsA_1 _ _)
  rw [el, er]

theorem lhsB_0 (j : S64x512.Idx) (q : dot_S128x64_S512x128_S64x512_0_1_1_0_n_n.contr.Idx) : (dot_S128x64_S512x128_S64x512_0_1_1_0_n_n.lhsIdx j q 0).val = (q ⟨0, by decide⟩).val :=
  dot_S128x64_S512x128_S64x512_0_1_1_0_n_n.lhsIdx_val_of_single rfl j q
theorem lhsB_1 (j : S64x512.Idx) (q : dot_S128x64_S512x128_S64x512_0_1_1_0_n_n.contr.Idx) : (dot_S128x64_S512x128_S64x512_0_1_1_0_n_n.lhsIdx j q 1).val = (j 0).val := by
  unfold DotDims.lhsIdx
  rw [dif_neg (show ¬(1 : Fin S128x64.rank) ∈ dot_S128x64_S512x128_S64x512_0_1_1_0_n_n.lhsBatch by decide), dif_pos (show (1 : Fin S128x64.rank) ∈ dot_S128x64_S512x128_S64x512_0_1_1_0_n_n.lhsNonContracting by decide)]
  rfl
theorem rhsB_0 (j : S64x512.Idx) (q : dot_S128x64_S512x128_S64x512_0_1_1_0_n_n.contr.Idx) : (dot_S128x64_S512x128_S64x512_0_1_1_0_n_n.rhsIdx j q 0).val = (j 1).val := by
  unfold DotDims.rhsIdx
  rw [dif_neg (show ¬(0 : Fin S512x128.rank) ∈ dot_S128x64_S512x128_S64x512_0_1_1_0_n_n.rhsBatch by decide), dif_pos (show (0 : Fin S512x128.rank) ∈ dot_S128x64_S512x128_S64x512_0_1_1_0_n_n.rhsNonContracting by decide)]
  rfl
theorem rhsB_1 (j : S64x512.Idx) (q : dot_S128x64_S512x128_S64x512_0_1_1_0_n_n.contr.Idx) : (dot_S128x64_S512x128_S64x512_0_1_1_0_n_n.rhsIdx j q 1).val = (q ⟨0, by decide⟩).val :=
  dot_S128x64_S512x128_S64x512_0_1_1_0_n_n.rhsIdx_val_of_single rfl j q

/-- The first weight matrix against the features: contract the weights' input axis with the features' input axis. -/
theorem matmulB_apply (Lv : FVec Ideal S128x64 .bf16) (Rv : FVec Ideal S512x128 .bf16) (h : Fin 64) (n : Fin 512) :
    matmul dot_S128x64_S512x128_S64x512_0_1_1_0_n_n none Lv Rv (constant (F := Ideal) S64x512 .f32 0x00000000#32) (ix2 h n) = ∑ d : Fin 128, Lv (ix2 d h) * Rv (ix2 n d) := by
  refine (Ideal.matmul_constant_zero_apply dot_S128x64_S512x128_S64x512_0_1_1_0_n_n none Lv Rv (ix2 h n)).trans ?_
  rw [← Equiv.sum_comp (ValueIdx.contrEquiv1 dot_S128x64_S512x128_S64x512_0_1_1_0_n_n 128 rfl rfl).symm]
  refine Finset.sum_congr rfl fun k _ => ?_
  have hk := ValueIdx.contrEquiv1_symm_val dot_S128x64_S512x128_S64x512_0_1_1_0_n_n 128 rfl rfl k
  have el : dot_S128x64_S512x128_S64x512_0_1_1_0_n_n.lhsIdx (ix2 h n) ((ValueIdx.contrEquiv1 dot_S128x64_S512x128_S64x512_0_1_1_0_n_n 128 rfl rfl).symm k) = ix2 k h := funext fun a => Fin.ext (by
    match a with
    | ⟨0, _⟩ => exact (lhsB_0 _ _).trans hk
    | ⟨1, _⟩ => exact lhsB_1 _ _)
  have er : dot_S128x64_S512x128_S64x512_0_1_1_0_n_n.rhsIdx (ix2 h n) ((ValueIdx.contrEquiv1 dot_S128x64_S512x128_S64x512_0_1_1_0_n_n 128 rfl rfl).symm k) = ix2 n k := funext fun a => Fin.ext (by
    match a with
    | ⟨0, _⟩ => exact rhsB_0 _ _
    | ⟨1, _⟩ => exact (rhsB_1 _ _).trans hk)
  rw [el, er]

theorem lhsC_0 (j : S64x512.Idx) (q : dot_S64x64_S64x512_S64x512_0_0_1_1_n_n.contr.Idx) : (dot_S64x64_S64x512_S64x512_0_0_1_1_n_n.lhsIdx j q 0).val = (q ⟨0, by decide⟩).val :=
  dot_S64x64_S64x512_S64x512_0_0_1_1_n_n.lhsIdx_val_of_single rfl j q
theorem lhsC_1 (j : S64x512.Idx) (q : dot_S64x64_S64x512_S64x512_0_0_1_1_n_n.contr.Idx) : (dot_S64x64_S64x512_S64x512_0_0_1_1_n_n.lhsIdx j q 1).val = (j 0).val := by
  unfold DotDims.lhsIdx
  rw [dif_neg (show ¬(1 : Fin S64x64.rank) ∈ dot_S64x64_S64x512_S64x512_0_0_1_1_n_n.lhsBatch by decide), dif_pos (show (1 : Fin S64x64.rank) ∈ dot_S64x64_S64x512_S64x512_0_0_1_1_n_n.lhsNonContracting by decide)]
  rfl
theorem rhsC_0 (j : S64x512.Idx) (q : dot_S64x64_S64x512_S64x512_0_0_1_1_n_n.contr.Idx) : (dot_S64x64_S64x512_S64x512_0_0_1_1_n_n.rhsIdx j q 0).val = (q ⟨0, by decide⟩).val :=
  dot_S64x64_S64x512_S64x512_0_0_1_1_n_n.rhsIdx_val_of_single rfl j q
theorem rhsC_1 (j : S64x512.Idx) (q : dot_S64x64_S64x512_S64x512_0_0_1_1_n_n.contr.Idx) : (dot_S64x64_S64x512_S64x512_0_0_1_1_n_n.rhsIdx j q 1).val = (j 1).val := by
  unfold DotDims.rhsIdx
  rw [dif_neg (show ¬(1 : Fin S64x512.rank) ∈ dot_S64x64_S64x512_S64x512_0_0_1_1_n_n.rhsBatch by decide), dif_pos (show (1 : Fin S64x512.rank) ∈ dot_S64x64_S64x512_S64x512_0_0_1_1_n_n.rhsNonContracting by decide)]
  rfl

/-- The second weight matrix against the hidden tile: contract the weights' input axis with the tile's feature axis. -/
theorem matmulC_apply (Lv : FVec Ideal S64x64 .bf16) (Rv : FVec Ideal S64x512 .bf16) (o : Fin 64) (n : Fin 512) :
    matmul dot_S64x64_S64x512_S64x512_0_0_1_1_n_n none Lv Rv (constant (F := Ideal) S64x512 .f32 0x00000000#32) (ix2 o n) = ∑ h : Fin 64, Lv (ix2 h o) * Rv (ix2 h n) := by
  refine (Ideal.matmul_constant_zero_apply dot_S64x64_S64x512_S64x512_0_0_1_1_n_n none Lv Rv (ix2 o n)).trans ?_
  rw [← Equiv.sum_comp (ValueIdx.contrEquiv1 dot_S64x64_S64x512_S64x512_0_0_1_1_n_n 64 rfl rfl).symm]
  refine Finset.sum_congr rfl fun k _ => ?_
  have hk := ValueIdx.contrEquiv1_symm_val dot_S64x64_S64x512_S64x512_0_0_1_1_n_n 64 rfl rfl k
  have el : dot_S64x64_S64x512_S64x512_0_0_1_1_n_n.lhsIdx (ix2 o n) ((ValueIdx.contrEquiv1 dot_S64x64_S64x512_S64x512_0_0_1_1_n_n 64 rfl rfl).symm k) = ix2 k o := funext fun a => Fin.ext (by
    match a with
    | ⟨0, _⟩ => exact (lhsC_0 _ _).trans hk
    | ⟨1, _⟩ => exact lhsC_1 _ _)
  have er : dot_S64x64_S64x512_S64x512_0_0_1_1_n_n.rhsIdx (ix2 o n) ((ValueIdx.contrEquiv1 dot_S64x64_S64x512_S64x512_0_0_1_1_n_n 64 rfl rfl).symm k) = ix2 k n := funext fun a => Fin.ext (by
    match a with
    | ⟨0, _⟩ => exact (rhsC_0 _ _).trans hk
    | ⟨1, _⟩ => exact rhsC_1 _ _)
  rw [el, er]

/-! ## The stages -/

section Stages

variable (P0 : Vec Ideal S1x512x512 .f32) (P1 : Vec Ideal S1x512x128 .f32) (P2 : Vec Ideal S128x64 .f32)
  (P3 : Vec Ideal S64 .f32) (P4 : Vec Ideal S64x64 .f32)

/-- The graph's adjacency as curried entries (source row, target column). -/
abbrev adjOf : Fin 512 → Fin 512 → EReal := fun r c => P0 (ix3 (0 : Fin 1) r c)

/-- The adjacency block as a matrix. -/
def adjM : FVec Ideal S512x512 .f32 := shapeCast S512x512 P0 shapeCasts_S1x512x512_S512x512

/-- The degrees as a row. -/
def degRow : FVec Ideal S1x512 .f32 :=
  shapeCast S1x512 (multiReduction .add [0] S512 (adjM P0) 0x00000000#32 reduces_S512x512_S512 (.inl rfl) rfl) shapeCasts_S512_S1x512

/-- Their guarded reciprocal square roots as a row. -/
def dinvRow : FVec Ideal S1x512 .f32 :=
  select (cmpf .ogt (degRow P0) (broadcast S1x512 (Scalar.ofBits (F := Ideal) .f32 0x00000000#32))) (rsqrt (degRow P0))
    (broadcast S1x512 (Scalar.ofBits (F := Ideal) .f32 0x00000000#32))

/-- One aggregation: scale along the source nodes, contract with the adjacency, scale along the target nodes. -/
def layer (s : FVec Ideal S64x512 .f32) : FVec Ideal S64x512 .f32 :=
  mulf (matmul dot_S64x512_S512x512_S64x512_1_0_0_1_n_n none
      (truncf .bf16 (mulf s (broadcastTo S64x512 (dinvRow P0) broadcasts_S1x512_S64x512)) bitsLt_bf16_f32)
      (truncf .bf16 (adjM P0) bitsLt_bf16_f32) (constant (F := Ideal) S64x512 .f32 0x00000000#32))
    (broadcastTo S64x512 (dinvRow P0) broadcasts_S1x512_S64x512)

/-- The first projection, transposed. -/
def projT : FVec Ideal S64x512 .f32 :=
  matmul dot_S128x64_S512x128_S64x512_0_1_1_0_n_n none (truncf .bf16 P2 bitsLt_bf16_f32)
    (truncf .bf16 (shapeCast S512x128 P1 shapeCasts_S1x512x128_S512x128) bitsLt_bf16_f32) (constant (F := Ideal) S64x512 .f32 0x00000000#32)

/-- A per-feature bias, then the clamp at zero. -/
def biasRelu (s : FVec Ideal S64x512 .f32) (bv : Vec Ideal S64 .f32) : FVec Ideal S64x512 .f32 :=
  maximumf (addf s (broadcastTo S64x512 (shapeCast S64x1 bv shapeCasts_S64_S64x1) broadcasts_S64x1_S64x512))
    (broadcast S64x512 (Scalar.ofBits (F := Ideal) .f32 0x00000000#32))

/-- The second projection, transposed. -/
def projT2 (h1 : FVec Ideal S64x512 .f32) : FVec Ideal S64x512 .f32 :=
  matmul dot_S64x64_S64x512_S64x512_0_0_1_1_n_n none (truncf .bf16 P4 bitsLt_bf16_f32) (truncf .bf16 h1 bitsLt_bf16_f32) (constant (F := Ideal) S64x512 .f32 0x00000000#32)

/-- The printed payload is the stages composed. -/
theorem pay2_eq : k0_pay2 (F := Ideal) P0 P1 P2 P3 P4 = layer P0 (projT2 P4 (biasRelu (layer P0 (projT P1 P2)) P3)) := rfl

theorem zero_word : Scalar.ofBits (F := Ideal) .f32 0x00000000#32 = (0 : EReal) := Ideal.ofBits_zero_f32

theorem adjM_apply (r c : Fin 512) : adjM P0 (ix2 r c) = adjOf P0 r c :=
  shapeCast_1ab_ab_apply P0 shapeCasts_S1x512x512_S512x512 r c

theorem degRow_apply (c : Fin 512) : degRow P0 (ix2 (0 : Fin 1) c) = Gcn.deg (adjOf P0) c :=
  (shapeCast_a_1a_apply _ shapeCasts_S512_S1x512 (0 : Fin 1) c).trans
    ((colsum_apply (adjM P0) c).trans (Finset.sum_congr rfl fun r _ => adjM_apply P0 r c))

theorem dinvRow_apply (c : Fin 512) : dinvRow P0 (ix2 (0 : Fin 1) c) = Gcn.dinv (adjOf P0) c := by
  show Scalar.select (FloatOps.cmpf .ogt (degRow P0 (ix2 (0 : Fin 1) c)) (Scalar.ofBits (F := Ideal) .f32 0x00000000#32))
      (FloatOps.rsqrt (degRow P0 (ix2 (0 : Fin 1) c))) (Scalar.ofBits (F := Ideal) .f32 0x00000000#32) = _
  rw [degRow_apply, zero_word]
  rfl

theorem layer_apply (s : FVec Ideal S64x512 .f32) (o : Fin 64) (c : Fin 512) :
    layer P0 s (ix2 o c) = Gcn.aggK (adjOf P0) (fun n => s (ix2 o n)) c := by
  unfold layer Gcn.aggK
  rw [mulf_apply, broadcastTo_1b_ab_apply, dinvRow_apply]
  refine congrArg (· * Gcn.dinv (adjOf P0) c) ((matmulA_apply _ _ o c).trans (Finset.sum_congr rfl fun n _ => ?_))
  show (s (ix2 o n) * broadcastTo S64x512 (dinvRow P0) broadcasts_S1x512_S64x512 (ix2 o n)) * adjM P0 (ix2 n c) = _
  rw [broadcastTo_1b_ab_apply, dinvRow_apply, adjM_apply]

theorem projT_apply (h : Fin 64) (n : Fin 512) :
    projT P1 P2 (ix2 h n) = ∑ d : Fin 128, P2 (ix2 d h) * P1 (ix3 (0 : Fin 1) n d) := by
  unfold projT
  refine (matmulB_apply _ _ h n).trans (Finset.sum_congr rfl fun d _ => ?_)
  show P2 (ix2 d h) * shapeCast S512x128 P1 shapeCasts_S1x512x128_S512x128 (ix2 n d) = _
  rw [shapeCast_1ab_ab_apply]

theorem biasRelu_apply (s : FVec Ideal S64x512 .f32) (bv : Vec Ideal S64 .f32) (h : Fin 64) (c : Fin 512) :
    biasRelu s bv (ix2 h c) = max (s (ix2 h c) + bv (ix1 h)) 0 := by
  show max (s (ix2 h c) + broadcastTo S64x512 (shapeCast S64x1 bv shapeCasts_S64_S64x1) broadcasts_S64x1_S64x512 (ix2 h c))
      (Scalar.ofBits (F := Ideal) .f32 0x00000000#32) = _
  rw [broadcastTo_a1_ab_apply, shapeCast_a_a1_apply, zero_word]

theorem projT2_apply (h1 : FVec Ideal S64x512 .f32) (o : Fin 64) (n : Fin 512) :
    projT2 P4 h1 (ix2 o n) = ∑ h : Fin 64, P4 (ix2 h o) * h1 (ix2 h n) := by
  unfold projT2
  exact matmulC_apply _ _ o n

/-- The hidden tile at (feature, node). -/
theorem hidden_apply (h : Fin 64) (c : Fin 512) :
    biasRelu (layer P0 (projT P1 P2)) P3 (ix2 h c)
      = Gcn.h1K (adjOf P0) (fun n d => P1 (ix3 (0 : Fin 1) n d)) (fun d f => P2 (ix2 d f)) (fun f => P3 (ix1 f)) h c := by
  rw [biasRelu_apply, layer_apply]
  unfold Gcn.h1K
  simp only [projT_apply]

/-- The payload at (output feature, node): the second aggregation, before its bias and clamp. -/
theorem pay2_apply (o : Fin 64) (c : Fin 512) :
    k0_pay2 (F := Ideal) P0 P1 P2 P3 P4 (ix2 o c)
      = Gcn.aggK (adjOf P0) (fun n => ∑ h : Fin 64, P4 (ix2 h o) *
          Gcn.h1K (adjOf P0) (fun n d => P1 (ix3 (0 : Fin 1) n d)) (fun d f => P2 (ix2 d f)) (fun f => P3 (ix1 f)) h n) c := by
  rw [pay2_eq, layer_apply]
  simp only [projT2_apply, hidden_apply]

end Stages

end Cert.KernelIdeal.Stages

end
-- ==== Proof.KernelBlocks.lean ====
/-
  From one graph's block to the whole result array.

  Grid point `t` is graph `t`: the adjacency and feature windows and the output window sit at block index `(t, 0, 0)`,
  the weights and biases at block index zero (they are whole arrays).  So what point `t` leaves in the output block,
  at (node `c`, feature `o`), is the two-layer value of graph `t` — `Gcn.outAt … t c o` — and the sixteen blocks tile
  the result array: graph `i 0` covers index `i`.
-/
import proofs.«150109_g57208964383454_cont_9to1_m_350_8_alg».proof.Proof.Gen.KernelIdeal.Value
import proofs.«150109_g57208964383454_cont_9to1_m_350_8_alg».proof.Proof.KernelStages

noncomputable section

namespace Cert.KernelIdeal.Blocks

open Cert.KernelIdeal Cert.KernelIdeal.Gen Cert.KernelIdeal.Value Cert.KernelIdeal.Stages
open Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## One point -/

/-- The block the body leaves, at (node `c`, feature `o`): the second layer's aggregation plus its bias, clamped — the
    payload is read transposed, at (feature, node). -/
theorem E6_apply (P0 : Vec Ideal S1x512x512 .f32) (P1 : Vec Ideal S1x512x128 .f32) (P2 : Vec Ideal S128x64 .f32)
    (P3 : Vec Ideal S64 .f32) (P4 : Vec Ideal S64x64 .f32) (P5 : Vec Ideal S64 .f32) (c : Fin 512) (o : Fin 64) :
    Value.E6 (F := Ideal) P0 P1 P2 P3 P4 P5 (ix3 (0 : Fin 1) c o)
      = Gcn.outK (adjOf P0) (fun n d => P1 (ix3 (0 : Fin 1) n d)) (fun d f => P2 (ix2 d f)) (fun f => P3 (ix1 f))
          (fun h o' => P4 (ix2 h o')) (fun o' => P5 (ix1 o')) o c := by
  have e0 : Value.ix6_0 (ix3 (0 : Fin 1) c o) = ix2 o c := funext fun a => Fin.ext (by
    match a with | ⟨0, _⟩ => rfl | ⟨1, _⟩ => rfl)
  have e1 : Value.ix6_1 (ix3 (0 : Fin 1) c o) = ix1 o := funext fun a => Fin.ext (by
    match a with | ⟨0, _⟩ => rfl)
  show max (k0_pay2 (F := Ideal) P0 P1 P2 P3 P4 (Value.ix6_0 (ix3 (0 : Fin 1) c o)) + P5 (Value.ix6_1 (ix3 (0 : Fin 1) c o)))
      (Scalar.ofBits (F := Ideal) .f32 0x00000000#32) = _
  rw [e0, e1, pay2_apply, zero_word]
  rfl

/-- What a point leaves in the output block, from its input blocks: if the adjacency and feature blocks are graph `b`'s
    slices of the arrays, it is graph `b`'s two-layer value. -/
theorem point_eq (x0 : Vec Ideal S1x512x512 .f32) (x1 : Vec Ideal S1x512x128 .f32) (x2 : Vec Ideal S128x64 .f32)
    (x3 : Vec Ideal S64 .f32) (x4 : Vec Ideal S64x64 .f32) (x5 : Vec Ideal S64 .f32)
    (xa : S16x512x128.Idx → EReal) (Aa : S16x512x512.Idx → EReal) (b : Fin 16)
    (h0 : ∀ r c, x0 (ix3 (0 : Fin 1) r c) = Aa (ix3 b r c)) (h1 : ∀ n d, x1 (ix3 (0 : Fin 1) n d) = xa (ix3 b n d))
    (y : S1x512x64.Idx) :
    out0_6 x0 x1 x2 x3 x4 x5 y = Gcn.outAt xa Aa x2 x3 x4 x5 b (y 1) (y 2) := by
  obtain ⟨u, c, o, rfl⟩ : ∃ (u : Fin 1) (c : Fin 512) (o : Fin 64), y = ix3 u c o := ⟨y 0, y 1, y 2, eq_ix3 y⟩
  obtain rfl : u = 0 := Subsingleton.elim _ _
  unfold out0_6
  simp only [View.ld_unit_zero (S := S1x512x512) hz3, View.ld_unit_zero (S := S1x512x128) hz3,
    View.ld_unit_zero (S := S128x64) hz2, View.ld_unit_zero (S := S64) hz1, View.ld_unit_zero (S := S64x64) hz2]
  rw [Value.canon6_eq, E6_apply, Gcn.outK_eq_outR]
  have eA : adjOf x0 = fun r c' => Aa (ix3 b r c') := funext fun r => funext fun c' => h0 r c'
  have eX : (fun n d => x1 (ix3 (0 : Fin 1) n d)) = fun n d => xa (ix3 b n d) := funext fun n => funext fun d => h1 n d
  rw [eA, eX]
  rfl

/-! ## The windows over the grid -/

variable (m : (ℓ : Loc nD τ sig) → Buf (Elt Ideal) ℓ) (ρ : Dev nD → PrngReg)

/-- The printed index maps, decided over the sixteen points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-- Point `t` as a graph number. -/
abbrev graphOf (t : Fin cfg0.N) : Fin 16 := Fin.cast N_0 t

/-- The adjacency window's block at point `t` is graph `t`'s slice. -/
theorem adj_blk (c : Dev nD) (t : Fin cfg0.N) (r c' : Fin 512) :
    (iblk m c 0 t : Vec Ideal S1x512x512 .f32) (ix3 (0 : Fin 1) r c')
      = (V m c main_arg1 : S16x512x512.Idx → EReal) (ix3 (graphOf t) r c') := by
  obtain ⟨e0, e1, e2, -⟩ := idx_facts t
  unfold iblk
  rw [View.read_apply]
  show V m c main_arg1 _ = V m c main_arg1 _
  congr 1
  funext a
  apply Fin.ext
  match a with
  | ⟨0, _⟩ => show win0_0.index t (0 : Fin 3) * 1 + 1 * 0 = t.val; omega
  | ⟨1, _⟩ => show win0_0.index t (1 : Fin 3) * 512 + 1 * r.val = r.val; omega
  | ⟨2, _⟩ => show win0_0.index t (2 : Fin 3) * 512 + 1 * c'.val = c'.val; omega

/-- The feature window's block at point `t` is graph `t`'s slice. -/
theorem feat_blk (c : Dev nD) (t : Fin cfg0.N) (n : Fin 512) (d : Fin 128) :
    (iblk m c 1 t : Vec Ideal S1x512x128 .f32) (ix3 (0 : Fin 1) n d)
      = (V m c main_arg0 : S16x512x128.Idx → EReal) (ix3 (graphOf t) n d) := by
  obtain ⟨-, -, -, e0, e1, e2, -⟩ := idx_facts t
  unfold iblk
  rw [View.read_apply]
  show V m c main_arg0 _ = V m c main_arg0 _
  congr 1
  funext a
  apply Fin.ext
  match a with
  | ⟨0, _⟩ => show win0_1.index t (0 : Fin 3) * 1 + 1 * 0 = t.val; omega
  | ⟨1, _⟩ => show win0_1.index t (1 : Fin 3) * 512 + 1 * n.val = n.val; omega
  | ⟨2, _⟩ => show win0_1.index t (2 : Fin 3) * 128 + 1 * d.val = d.val; omega

/-- The first weight matrix's window is the whole array at every point. -/
theorem w1_blk (c : Dev nD) (t : Fin cfg0.N) :
    (iblk m c 2 t : Vec Ideal S128x64 .f32) = (V m c main_arg2 : S128x64.Idx → EReal) := by
  obtain ⟨-, -, -, -, -, -, e0, e1, -⟩ := idx_facts t
  funext j
  unfold iblk
  rw [View.read_apply]
  show V m c main_arg2 _ = V m c main_arg2 j
  congr 1
  funext a
  apply Fin.ext
  match a with
  | ⟨0, _⟩ => show win0_2.index t (0 : Fin 2) * 128 + 1 * (j 0).val = (j 0).val; omega
  | ⟨1, _⟩ => show win0_2.index t (1 : Fin 2) * 64 + 1 * (j 1).val = (j 1).val; omega

/-- The first bias's window is the whole array at every point. -/
theorem b1_blk (c : Dev nD) (t : Fin cfg0.N) :
    (iblk m c 3 t : Vec Ideal S64 .f32) = (V m c main_arg3 : S64.Idx → EReal) := by
  obtain ⟨-, -, -, -, -, -, -, -, e0, -⟩ := idx_facts t
  funext j
  unfold iblk
  rw [View.read_apply]
  show V m c main_arg3 _ = V m c main_arg3 j
  congr 1
  funext a
  apply Fin.ext
  match a with
  | ⟨0, _⟩ => show win0_3.index t (0 : Fin 1) * 64 + 1 * (j 0).val = (j 0).val; omega

/-- The second weight matrix's window is the whole array at every point. -/
theorem w2_blk (c : Dev nD) (t : Fin cfg0.N) :
    (iblk m c 4 t : Vec Ideal S64x64 .f32) = (V m c main_arg4 : S64x64.Idx → EReal) := by
  obtain ⟨-, -, -, -, -, -, -, -, -, e0, e1, -⟩ := idx_facts t
  funext j
  unfold iblk
  rw [View.read_apply]
  show V m c main_arg4 _ = V m c main_arg4 j
  congr 1
  funext a
  apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega

/-- The second bias's window is the whole array at every point. -/
theorem b2_blk (c : Dev nD) (t : Fin cfg0.N) :
    (iblk m c 5 t : Vec Ideal S64 .f32) = (V m c main_arg5 : S64.Idx → EReal) := by
  obtain ⟨-, -, -, -, -, -, -, -, -, -, -, e0, -⟩ := idx_facts t
  funext j
  unfold iblk
  rw [View.read_apply]
  show V m c main_arg5 _ = V m c main_arg5 j
  congr 1
  funext a
  apply Fin.ext
  match a with
  | ⟨0, _⟩ => show win0_5.index t (0 : Fin 1) * 64 + 1 * (j 0).val = (j 0).val; omega

/-! ## The result array -/

/-- The two-layer value of every graph, of the argument arrays as the region finds them. -/
abbrev result (c : Dev nD) : S16x512x64.Idx → EReal :=
  Gcn.out (V m c main_arg0) (V m c main_arg1) (V m c main_arg2) (V m c main_arg3) (V m c main_arg4) (V m c main_arg5)

/-- What point `t` writes back is block `t` of `result`. -/
theorem flushed_eq (c : Dev nD) (t : Fin cfg0.N) :
    (dats m 0 c).flushed 6 t = ((cfg0.win 6).blk t).view.read (Elt Ideal) (result m c) := by
  obtain ⟨-, -, -, -, -, -, -, -, -, -, -, -, e0, e1, e2⟩ := idx_facts t
  rw [Value.flushed6]
  funext j
  show out0_6 (iblk m c 0 t) (iblk m c 1 t) (iblk m c 2 t) (iblk m c 3 t) (iblk m c 4 t) (iblk m c 5 t) j
    = result m c (((cfg0.win 6).blk t).view.emb j)
  refine (point_eq (iblk m c 0 t) (iblk m c 1 t) (iblk m c 2 t) (iblk m c 3 t) (iblk m c 4 t) (iblk m c 5 t)
    (V m c main_arg0) (V m c main_arg1) (graphOf t) (adj_blk m c t) (feat_blk m c t) j).trans ?_
  rw [w1_blk m c t, b1_blk m c t, w2_blk m c t, b2_blk m c t]
  have hj0 : (j 0).val < 1 := (j 0).isLt
  have q0 : (((cfg0.win 6).blk t).view.emb j) 0 = graphOf t := Fin.ext (by
    show win0_6.index t (0 : Fin 3) * 1 + 1 * (j 0).val = t.val; omega)
  have q1 : (((cfg0.win 6).blk t).view.emb j) 1 = j 1 := Fin.ext (by
    show win0_6.index t (1 : Fin 3) * 512 + 1 * (j 1).val = (j 1).val; omega)
  have q2 : (((cfg0.win 6).blk t).view.emb j) 2 = j 2 := Fin.ext (by
    show win0_6.index t (2 : Fin 3) * 64 + 1 * (j 2).val = (j 2).val; omega)
  show _ = Gcn.outAt _ _ _ _ _ _ ((((cfg0.win 6).blk t).view.emb j) 0) ((((cfg0.win 6).blk t).view.emb j) 1) ((((cfg0.win 6).blk t).view.emb j) 2)
  rw [q0, q1, q2]

/-- An index of the result array is in point `t`'s block iff each coordinate is in the block's range on its axis. -/
theorem mem_blk (t : Fin cfg0.N) (i : S16x512x64.Idx) :
    i ∈ ((cfg0.win 6).blk t).view.set ↔ ∀ a : Fin 3, win0_6.index t a * S1x512x64.size a ≤ (i a).val ∧ (i a).val < win0_6.index t a * S1x512x64.size a + S1x512x64.size a := by
  show i ∈ ((View.whole main_v0).slice (win0_6.rect t)).set ↔ _
  rw [View.set_slice_whole, Rect.mem_set_unit]
  exact Iff.rfl

/-- The result array after the run: graph `i 0`'s point covers index `i`. -/
theorem final (c : Dev nD) : (dats m 0 c).arrAt 6 cfg0.N = result m c :=
  (dats m 0 c).arrAt_eq_of_cover 6 (result m c) (fun t _ => flushed_eq m c t) fun i => by
    have hi0 : (i 0).val < 16 := (i 0).isLt
    have hi1 : (i 1).val < 512 := (i 1).isLt
    have hi2 : (i 2).val < 64 := (i 2).isLt
    let t : Fin cfg0.N := ⟨(i 0).val, by rw [show cfg0.N = 16 from N_0]; exact hi0⟩
    obtain ⟨-, -, -, -, -, -, -, -, -, -, -, -, e0, e1, e2⟩ := idx_facts t
    have e0' : win0_6.index t (0 : Fin 3) = (i 0).val := e0
    refine ⟨t, flush0_6 t, ?_⟩
    rw [mem_blk]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 512 ≤ (i 1).val ∧ (i 1).val < win0_6.index t (1 : Fin 3) * 512 + 512; omega
    | ⟨2, _⟩ => show win0_6.index t (2 : Fin 3) * 64 ≤ (i 2).val ∧ (i 2).val < win0_6.index t (2 : Fin 3) * 64 + 64; omega

/-- The run, read: the result array at the two-layer value of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.lean ====
/-
  Two fused dense graph-convolution layers, one graph per grid point, against the plain reference.

  Per graph, with adjacency `A`, degrees `deg c = ∑ r, A r c` and `dinv c = 1/√(deg c)` where the degree is positive
  and `0` elsewhere, a layer is `relu(D^{-1/2} Aᵀ D^{-1/2} (x W) + b)`.  The reference forms the normalized adjacency
  entry `(dinv c · A r c) · dinv r` and contracts it with `x W`; the kernel works in the transposed (feature, node)
  layout and never forms it: it scales `(x W)ᵀ` along the source nodes, contracts with `A`, and scales along the
  target nodes.  On the extended reals the two agree entry by entry: `dinv c` is a nonnegative real for EVERY
  extended-real degree (the guard sends a non-positive degree to `0`, the reciprocal square root sends `+∞` to `0`),
  so it distributes over the sum over the source nodes; the rest is commutativity and associativity of the product.
  No finiteness of the inputs is used.  The kernel's changes of float format are the identity at this instance, its
  matrix products into a zero accumulator and its column sum are plain sums.

  `Gcn` (GcnSpec) has the two arrangements and the law; RefIsSpec reads the reference's run as `Gcn.out`; KernelStages
  reads the body's payload at an index; KernelBlocks takes the sixteen blocks to the result array.  The frames are the
  generated ones; the idealization rewrote nothing, so `preserves` is `True`.
-/
import proofs.«150109_g57208964383454_cont_9to1_m_350_8_alg».proof.Defs
import proofs.«150109_g57208964383454_cont_9to1_m_350_8_alg».proof.Proof.Gen.Kernel
import proofs.«150109_g57208964383454_cont_9to1_m_350_8_alg».proof.Proof.Gen.Kernel.Skeleton
import proofs.«150109_g57208964383454_cont_9to1_m_350_8_alg».proof.Proof.Gen.Kernel.Launch
import proofs.«150109_g57208964383454_cont_9to1_m_350_8_alg».proof.Proof.Gen.Kernel.Points
import proofs.«150109_g57208964383454_cont_9to1_m_350_8_alg».proof.Proof.Gen.Kernel.Frame
import proofs.«150109_g57208964383454_cont_9to1_m_350_8_alg».proof.Proof.Gen.KernelIdeal
import proofs.«150109_g57208964383454_cont_9to1_m_350_8_alg».proof.Proof.Gen.KernelIdeal.Skeleton
import proofs.«150109_g57208964383454_cont_9to1_m_350_8_alg».proof.Proof.Gen.KernelIdeal.Launch
import proofs.«150109_g57208964383454_cont_9to1_m_350_8_alg».proof.Proof.Gen.KernelIdeal.Points
import proofs.«150109_g57208964383454_cont_9to1_m_350_8_alg».proof.Proof.Gen.KernelIdeal.Frame
import proofs.«150109_g57208964383454_cont_9to1_m_350_8_alg».proof.Proof.Gen.ReferenceIdeal
import proofs.«150109_g57208964383454_cont_9to1_m_350_8_alg».proof.Proof.Gen.Pre_finite_inputs
import proofs.«150109_g57208964383454_cont_9to1_m_350_8_alg».proof.Proof.Gen.KernelIdeal.Value
import proofs.«150109_g57208964383454_cont_9to1_m_350_8_alg».proof.Proof.Gen.ReferenceIdeal.Run
import proofs.«150109_g57208964383454_cont_9to1_m_350_8_alg».proof.Proof.Gen.ReferenceIdeal.Read
import proofs.«150109_g57208964383454_cont_9to1_m_350_8_alg».proof.Proof.RefIsSpec
import proofs.«150109_g57208964383454_cont_9to1_m_350_8_alg».proof.Proof.KernelBlocks
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the two-layer value `Gcn.out` of the (agreeing) arguments: the kernel's
    by its sixteen blocks, the reference's by its run read one operation at a time. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefSpec.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
